-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S1x10000x128 .f32) (main_arg1 : FVec F S10000x10000 .f32) (main_arg2 : FVec F S128x128 .f32) (main_arg3 : FVec F S128 .f32) (main_arg4 : FVec F S128 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S10000x128 : Shape := ⟨2, ![10000, 128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 10
  | .vmem => 9
  | .smem => 0
  | _ => 0

abbrev bufTy : (tb : Table) → Fin (tcTables nBuf tb) → BufTy
  | .hbm, ⟨0, _⟩ => ⟨S1x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S10000x128, .f32⟩
  | .hbm, ⟨6, _⟩ => ⟨S1x128, .f32⟩
  | .hbm, ⟨7, _⟩ => ⟨S1x128, .f32⟩
  | .hbm, ⟨8, _⟩ => ⟨S10000x128, .f32⟩
  | .hbm, ⟨9, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S400x10000, .f32⟩
  | .local _ .vmem, ⟨5, _⟩ => ⟨S400x10000, .f32⟩
  | .local _ .vmem, ⟨6, _⟩ => ⟨S400x128, .f32⟩
  | .local _ .vmem, ⟨7, _⟩ => ⟨S400x128, .f32⟩
  | .local _ .vmem, ⟨8, _⟩ => ⟨S10000x128, .bf16⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x10000x128_S10000x128 : S1x10000x128.ShapeCasts S10000x128
  shapeCasts_S128_S1x128 : S128.ShapeCasts S1x128
  shapeCasts_S10000x128_S1x10000x128 : S10000x128.ShapeCasts S1x10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  reduces_S10000x128_S128 : S10000x128.Reduces [0] S128
  broadcasts_S1x128_S10000x128 : S1x128.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .f32 = 32 ∨ (Rect.block (s := S10000x10000) S400x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_call0_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S400x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S10000x128 : Shape := ⟨2, ![10000, 128]⟩
abbrev S_ : Shape := ⟨0, ![]⟩
abbrev S1x128 : Shape := ⟨2, ![1, 128]⟩
abbrev S10000x1x128 : Shape := ⟨3, ![10000, 1, 128]⟩

abbrev nBuf : Space → Nat
  | .hbm => 60
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S10000x128, .f32⟩
  | .hbm, ⟨6, _⟩ => ⟨S10000x128, .f32⟩
  | .hbm, ⟨7, _⟩ => ⟨S_, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S1x128, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S10000x128, .f32⟩
  | .hbm, ⟨44, _⟩ => ⟨S10000x128, .f32⟩
  | .hbm, ⟨45, _⟩ => ⟨S1x128, .f32⟩
  | .hbm, ⟨46, _⟩ => ⟨S10000x128, .f32⟩
  | .hbm, ⟨47, _⟩ => ⟨S10000x128, .f32⟩
  | .hbm, ⟨48, _⟩ => ⟨S1x128, .f32⟩
  | .hbm, ⟨49, _⟩ => ⟨S10000x128, .f32⟩
  | .hbm, ⟨50, _⟩ => ⟨S10000x128, .f32⟩
  | .hbm, ⟨51, _⟩ => ⟨S_, .f32⟩
  | .hbm, ⟨52, _⟩ => ⟨S10000x128, .f32⟩
  | .hbm, ⟨53, _⟩ => ⟨S10000x128, .f32⟩
  | .hbm, ⟨54, _⟩ => ⟨S1x10000x128, .f32⟩
  | .hbm, ⟨55, _⟩ => ⟨S10000x1x128, .f32⟩
  | .hbm, ⟨56, _⟩ => ⟨S10000x128, .f32⟩
  | .hbm, ⟨57, _⟩ => ⟨S10000x128, .f32⟩
  | .hbm, ⟨58, _⟩ => ⟨S10000x1x128, .f32⟩
  | .hbm, ⟨59, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_call1_cst : Ref sig .tc := ⟨.hbm, 51, rfl⟩
abbrev main_call1_v0 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩

abbrev nD : Nat := 1
abbrev τ : Topo := Topo.v7x

variable {F : FTy → Type} [FloatOps F]

class Facts₀ : Prop where
  shapeCasts_S1x10000x128_S10000x128 : S1x10000x128.ShapeCasts S10000x128
  reducesTo_S10000x128_S128_d0 : S10000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  shapeCasts_S10000x128_S1x10000x128 : S10000x128.ShapeCasts S1x10000x128
  transposes_S1x10000x128_S10000x1x128_1_0_2 : S1x10000x128.Transposes [1, 0, 2] S10000x1x128
  shapeCasts_S10000x1x128_S10000x128 : S10000x1x128.ShapeCasts S10000x128
  shapeCasts_S10000x128_S10000x1x128 : S10000x128.ShapeCasts S10000x1x128
  transposes_S10000x1x128_S1x10000x128_1_0_2 : S10000x1x128.Transposes [1, 0, 2] S1x10000x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The mathematics of the certificate, over plain extended reals and `Fin`-indexed families.

  A graph-convolution layer: the node features `H` (10000 × 128, behind a unit batch axis) are multiplied by `W`,
  each of the 128 columns is normalised by its own mean and (biased) variance over the 10000 rows, scaled by `γ`,
  shifted by `β` and clipped below at zero; the adjacency matrix `A` (10000 × 10000) then aggregates the rows.

  The two programs differ in ONE place: one multiplies the centred value by the reciprocal square root of
  `var + ε`, the other divides it by the square root. On the extended reals these agree as soon as `var + ε` is
  positive (`mul_rsqrt_eq_div_sqrt`), and it always is: a square is never negative, at the infinities either, so the
  variance is at least zero (`var_nonneg`), and `ε` is a positive real (`eps_pos`). No finiteness of the inputs is
  used anywhere.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## The three literals -/

/-- The row count `10000.0` as both programs spell it. -/
abbrev nLit : EReal := Ideal.ofBits .f32 0x461C4000#32
/-- The variance offset `ε` (the single-precision number nearest `1e-5`) as both programs spell it. -/
abbrev epsLit : EReal := Ideal.ofBits .f32 0x3727C5AC#32
/-- `+0.0`, the clip level. -/
abbrev zLit : EReal := Ideal.ofBits .f32 0x00000000#32

/-- The pattern `0x461C4000` denotes the real `10000`: exponent field `140`, so `2^13`, times `1 + 1851392 / 2^23`. -/
theorem nLit_eq : nLit = ((10000 : ℝ) : EReal) := by
  simp [nLit, Ideal.ofBits, Ideal.ieee, -EReal.coe_mul]; norm_num

/-- The pattern `0x3727C5AC` denotes a positive real: a normal number with a clear sign bit. -/
theorem eps_pos : 0 < epsLit := by
  have h : epsLit = ((10995116 * (2 : ℝ) ^ (-40 : ℤ) : ℝ) : EReal) := by
    simp [epsLit, Ideal.ofBits, Ideal.ieee, -EReal.coe_mul]
  rw [h]
  exact EReal.coe_pos.mpr (by positivity)

theorem nLit_pos : 0 < nLit := by rw [nLit_eq]; exact EReal.coe_pos.mpr (by norm_num)

/-! ## One column's statistics and activation -/

/-- A column's mean: its sum over the 10000 rows, divided by the row count. -/
def mu (h : Fin 10000 → EReal) : EReal := Ideal.div (∑ r, h r) nLit

/-- A column's biased variance: the mean of the squared deviations from `mu`. -/
def var (h : Fin 10000 → EReal) : EReal := Ideal.div (∑ r, (h r - mu h) * (h r - mu h)) nLit

/-- The activation with the RECIPROCAL square root: `max ((h r − μ) · rsqrt (σ² + ε) · γ + β) 0`. -/
def actMul (h : Fin 10000 → EReal) (g b : EReal) (r : Fin 10000) : EReal :=
  max ((h r - mu h) * Ideal.rsqrt (var h + epsLit) * g + b) zLit

/-- The activation with the QUOTIENT by the square root: `max ((h r − μ) / sqrt (σ² + ε) · γ + β) 0`. -/
def actDiv (h : Fin 10000 → EReal) (g b : EReal) (r : Fin 10000) : EReal :=
  max (Ideal.div (h r - mu h) (Ideal.sqrt (var h + epsLit)) * g + b) zLit

/-- A square is never negative on the extended reals: `⊥ · ⊥ = ⊤ · ⊤ = ⊤`. -/
theorem mul_self_nonneg' (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- So the variance is never negative: a sum of squares times the positive real `1 / 10000`. -/
theorem var_nonneg (h : Fin 10000 → EReal) : 0 ≤ var h := by
  unfold var
  rw [nLit_eq, Ideal.div_coe (by norm_num : (10000 : ℝ) ≠ 0)]
  exact mul_nonneg (Finset.sum_nonneg fun r _ => mul_self_nonneg' _) (EReal.coe_nonneg.mpr (by norm_num))

/-- THE LAW. For a positive extended real `v`, multiplying by `rsqrt v` is dividing by `sqrt v`: at `⊤` both
    are the product with `0`; at a positive real `r` the square root is a nonzero real whose inverse is the
    reciprocal square root. -/
theorem mul_rsqrt_eq_div_sqrt (x v : EReal) (hv : 0 < v) : x * Ideal.rsqrt v = Ideal.div x (Ideal.sqrt v) := by
  induction v using EReal.rec with
  | bot => exact absurd hv (not_lt.mpr bot_le)
  | top =>
    rw [Ideal.rsqrt_top, Ideal.sqrt_top, Ideal.div, if_neg (by simp), EReal.inv_top]
  | coe r =>
    have hr : 0 < r := EReal.coe_pos.mp hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div, if_neg (by exact_mod_cast hs), EReal.coe_inv]

/-- The two activations are one function. -/
theorem actMul_eq_actDiv (h : Fin 10000 → EReal) (g b : EReal) (r : Fin 10000) : actMul h g b r = actDiv h g b r := by
  unfold actMul actDiv
  rw [mul_rsqrt_eq_div_sqrt _ _ (lt_of_lt_of_le eps_pos (le_add_of_nonneg_left (var_nonneg h)))]

/-! ## The layer -/

/-- The transformed features before normalisation: entry `(r, j)` of `H · W`. -/
def ht (H : (⟨3, ![1, 10000, 128]⟩ : Shape).Idx → EReal) (W : (⟨2, ![128, 128]⟩ : Shape).Idx → EReal)
    (j : Fin 128) (r : Fin 10000) : EReal :=
  ∑ c : Fin 128, H (ix3 (0 : Fin 1) r c) * W (ix2 c j)

/-- The layer's result with a given activation: entry `(0, i, j)` is `∑ₖ A (i, k) · act (k, j)`. -/
def layer (act : (Fin 10000 → EReal) → EReal → EReal → Fin 10000 → EReal)
    (H : (⟨3, ![1, 10000, 128]⟩ : Shape).Idx → EReal) (A : (⟨2, ![10000, 10000]⟩ : Shape).Idx → EReal)
    (W : (⟨2, ![128, 128]⟩ : Shape).Idx → EReal) (g b : (⟨1, ![128]⟩ : Shape).Idx → EReal) :
    (⟨3, ![1, 10000, 128]⟩ : Shape).Idx → EReal :=
  fun x => ∑ k : Fin 10000, A (ix2 (x 1) k) * act (ht H W (x 2)) (g (ix1 (x 2))) (b (ix1 (x 2))) k

/-- With either activation the layer is the same array. -/
theorem layer_actMul_eq_actDiv (H : (⟨3, ![1, 10000, 128]⟩ : Shape).Idx → EReal)
    (A : (⟨2, ![10000, 10000]⟩ : Shape).Idx → EReal) (W : (⟨2, ![128, 128]⟩ : Shape).Idx → EReal)
    (g b : (⟨1, ![128]⟩ : Shape).Idx → EReal) : layer actMul H A W g b = layer actDiv H A W g b := by
  funext x
  unfold layer
  exact Finset.sum_congr rfl fun k _ => by rw [actMul_eq_actDiv]

end Cert.Spec

end
-- ==== Proof.KerPieces.lean ====
/-
  What one run of the kernel body leaves behind, as values of the blocks it loaded.

  At the grid's first point the body stores the whole scratch once — the normalised, clipped features, a function
  of the four small operands only — and then the output block: the adjacency row block times that scratch, which it
  has just read back. At every later point it stores only the output block: the adjacency row block times whatever the
  scratch held on entry. Each store covers its buffer whole, so what the buffer holds afterwards is the store's value.
-/
import proofs.«174554_g26774826123627_cont_sun_c4_362_7_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KerPieces

open Cert.KernelIdeal Cert.KernelIdeal.Gen

variable {F : FTy → Type} [FloatOps F]

/-- The zero offsets of a whole-buffer access, as a constant function. -/
theorem hz : (![0, 0] : Fin 2 → Nat) = fun _ => 0 := funext fun a => by fin_cases a <;> rfl

/-- FIRST POINT, the scratch: the one store's value, the normalised features of the four small operands. -/
theorem scratch_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .bf16) (harg7 : arg7.IsWhole) (hc0 : cond0_0 i)
    (x0 : Vec F S10000x128 .f32) (x1 : Vec F S128x128 .f32) (x2 : Vec F S1x128 .f32) (x3 : Vec F S1x128 .f32) (x4 : Vec F S400x10000 .f32) :
    sout0_A_0 c i arg1 harg1 arg2 harg2 arg3 harg3 arg4 harg4 arg5 harg5 arg6 harg6 arg7 harg7 hc0 x0 x1 x2 x3 x4 = k0_pay1 x0 x1 x2 x3 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, harg2.read_unread, harg3.read_unread, harg4.read_unread,
    View.ld_unit_zero (S := S10000x128) hz, View.ld_unit_zero (S := S128x128) hz, View.ld_unit_zero (S := S1x128) hz]

/-- FIRST POINT, the output block: the adjacency block times the scratch just stored (read back whole). -/
theorem out_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .bf16) (harg7 : arg7.IsWhole) (hc0 : cond0_0 i)
    (x0 : Vec F S10000x128 .f32) (x1 : Vec F S128x128 .f32) (x2 : Vec F S1x128 .f32) (x3 : Vec F S1x128 .f32) (x4 : Vec F S400x10000 .f32) :
    out0_A_5 c i arg1 harg1 arg2 harg2 arg3 harg3 arg4 harg4 arg5 harg5 arg6 harg6 arg7 harg7 hc0 x0 x1 x2 x3 x4 = k0_pay2 x4 (k0_pay1 x0 x1 x2 x3) := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    View.readCov_unit_zero (S := S10000x128) _ hz,
    View.ld_unit_zero (S := S10000x128) hz, View.ld_unit_zero (S := S128x128) hz, View.ld_unit_zero (S := S1x128) hz,
    View.ld_unit_zero (S := S400x10000) hz]

/-- A LATER POINT, the output block: the adjacency block times the scratch as the point found it. -/
theorem out_later (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .bf16) (harg7 : arg7.IsWhole) (hc0 : ¬cond0_0 i)
    (x0 : Vec F S10000x128 .f32) (x1 : Vec F S128x128 .f32) (x2 : Vec F S1x128 .f32) (x3 : Vec F S1x128 .f32) (x4 : Vec F S400x10000 .f32) (xs0 : Vec F S10000x128 .bf16) :
    out0_B_5 c i arg1 harg1 arg2 harg2 arg3 harg3 arg4 harg4 arg5 harg5 arg6 harg6 arg7 harg7 hc0 x0 x1 x2 x3 x4 xs0 = k0_pay2 x4 xs0 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  sl_unfold_words
  rw [View.canon_unit_zero hz]
  simp only [View.readAt_eq_ld, harg5.read_unread, harg7.read_unread,
    View.ld_unit_zero (S := S10000x128) hz, View.ld_unit_zero (S := S400x10000) hz]

end Cert.KernelIdeal.KerPieces

end
-- ==== Proof.KerPay.lean ====
/-
  The kernel body's two stored values read at an index, at the ideal instance. The scratch value (stored once, at
  the first grid point) is the activation in its reciprocal-square-root form of the column `r ↦ ∑_c x (r, c) · w (c, j)`;
  the output block is the row block of the adjacency matrix times the scratch.
-/
import proofs.«174554_g26774826123627_cont_sun_c4_362_7_alg».proof.Proof.Gen.KernelIdeal.Skeleton
import proofs.«174554_g26774826123627_cont_sun_c4_362_7_alg».proof.Proof.Spec
import Idealize.ShloMosaic.Lib.Pipeline.Value
import Idealize.ShloMosaic.Lib.ValueLayout

noncomputable section

open scoped BigOperators

namespace Cert.KernelIdeal.KerPay

open Idealize.ShloMosaic Idealize.ShloMosaic.ValueIdx Cert.KernelIdeal Cert.KernelIdeal.Gen

/-! ## The two contractions

Both products contract the left operand's columns with the right operand's rows. The contraction index of such a
product is its one coordinate; the four facts below name, axis by axis, the operand entries that meet at output
position `i` and contraction position `q`: the left operand at `(i 0, q)`, the right one at `(q, i 1)`. -/

private theorem lhsW_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

private theorem lhsW_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

private theorem rhsW_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

private theorem rhsW_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The features times the weights, into a zero accumulator: entry `(r, j)` is `∑_c x (r, c) · w (c, j)`. -/
private theorem featW_apply (x : FVec Ideal S10000x128 .f32) (w : FVec Ideal S128x128 .f32) (r : Fin 10000) (j : Fin 128) :
    matmul (F := Ideal) dot_S10000x128_S128x128_S10000x128_1_0_0_1_n_n none x w (constant S10000x128 .f32 0x00000000#32) (ix2 r j)
      = ∑ c : Fin 128, x (ix2 r c) * w (ix2 c j) := by
  refine (Ideal.matmul_constant_zero_apply dot_S10000x128_S128x128_S10000x128_1_0_0_1_n_n none x w (ix2 r j)).trans ?_
  rw [← Equiv.sum_comp (contrEquiv1 dot_S10000x128_S128x128_S10000x128_1_0_0_1_n_n 128 rfl rfl).symm]
  refine Finset.sum_congr rfl fun c _ => ?_
  have hc := contrEquiv1_symm_val dot_S10000x128_S128x128_S10000x128_1_0_0_1_n_n 128 rfl rfl c
  have el : dot_S10000x128_S128x128_S10000x128_1_0_0_1_n_n.lhsIdx (ix2 r j)
      ((contrEquiv1 dot_S10000x128_S128x128_S10000x128_1_0_0_1_n_n 128 rfl rfl).symm c) = ix2 r c :=
    funext fun a => Fin.ext (by
      match a with
      | ⟨0, _⟩ => exact lhsW_0 _ _
      | ⟨1, _⟩ => exact (lhsW_1 _ _).trans hc)
  have er : dot_S10000x128_S128x128_S10000x128_1_0_0_1_n_n.rhsIdx (ix2 r j)
      ((contrEquiv1 dot_S10000x128_S128x128_S10000x128_1_0_0_1_n_n 128 rfl rfl).symm c) = ix2 c j :=
    funext fun a => Fin.ext (by
      match a with
      | ⟨0, _⟩ => exact (rhsW_0 _ _).trans hc
      | ⟨1, _⟩ => exact rhsW_1 _ _)
  rw [el, er]

private theorem lhsA_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl

private theorem lhsA_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q

private theorem rhsA_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q

private theorem rhsA_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- A row block of the adjacency matrix times the activations, into a zero accumulator: entry `(p, q)` is
    `∑_k a (p, k) · s (k, q)`. -/
private theorem adjS_apply (a : FVec Ideal S400x10000 .bf16) (s : FVec Ideal S10000x128 .bf16) (p : Fin 400) (q : Fin 128) :
    matmul (F := Ideal) dot_S400x10000_S10000x128_S400x128_1_0_0_1_n_n none a s (constant S400x128 .f32 0x00000000#32) (ix2 p q)
      = ∑ k : Fin 10000, a (ix2 p k) * s (ix2 k q) := by
  refine (Ideal.matmul_constant_zero_apply dot_S400x10000_S10000x128_S400x128_1_0_0_1_n_n none a s (ix2 p q)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q)
      ((contrEquiv1 dot_S400x10000_S10000x128_S400x128_1_0_0_1_n_n 10000 rfl rfl).symm k) = ix2 p k :=
    funext fun ax => Fin.ext (by
      match ax with
      | ⟨0, _⟩ => exact lhsA_0 _ _
      | ⟨1, _⟩ => exact (lhsA_1 _ _).trans hk)
  have er : dot_S400x10000_S10000x128_S400x128_1_0_0_1_n_n.rhsIdx (ix2 p q)
      ((contrEquiv1 dot_S400x10000_S10000x128_S400x128_1_0_0_1_n_n 10000 rfl rfl).symm k) = ix2 k q :=
    funext fun ax => Fin.ext (by
      match ax with
      | ⟨0, _⟩ => exact (rhsA_0 _ _).trans hk
      | ⟨1, _⟩ => exact rhsA_1 _ _)
  rw [el, er]

/-! ## The column statistics

The kernel sums each column of a matrix over its 10000 rows, keeps the 128 sums as a one-row matrix, and divides by
the row count: that row is the columns' means. Centring, squaring and averaging once more gives the variances. -/

/-- The sum over the rows, at column `j`. -/
private theorem colSum_apply (M : FVec Ideal S10000x128 .f32) (j : Fin 128) :
    multiReduction (F := Ideal) .add [0] S128 M 0x00000000#32 reduces_S10000x128_S128 (.inl rfl) rfl (ix1 j)
      = ∑ r : Fin 10000, M (ix2 r j) := by
  refine (Ideal.multiReduction_add_single M _ reduces_S10000x128_S128 _ _ (ix1 j)).trans ?_
  refine Finset.sum_congr rfl fun r _ => congrArg M (funext fun a => Fin.ext ?_)
  match a with
  | ⟨0, _⟩ => rfl
  | ⟨1, _⟩ => rfl

/-- The column sums as a one-row matrix. -/
private def sumRow (M : FVec Ideal S10000x128 .f32) : FVec Ideal S1x128 .f32 :=
  shapeCast S1x128
    (multiReduction (F := Ideal) .add [0] S128 M 0x00000000#32 reduces_S10000x128_S128 (.inl rfl) rfl) shapeCasts_S128_S1x128

private theorem sumRow_apply (M : FVec Ideal S10000x128 .f32) (u : Fin 1) (j : Fin 128) :
    sumRow M (ix2 u j) = ∑ r : Fin 10000, M (ix2 r j) := by
  unfold sumRow
  rw [shapeCast_a_1a_apply, colSum_apply]

/-- The columns' means as a one-row matrix. -/
private def meanRow (M : FVec Ideal S10000x128 .f32) : FVec Ideal S1x128 .f32 :=
  divf (sumRow M) (broadcast S1x128 (Scalar.ofBits (F := Ideal) .f32 0x461C4000#32))

private theorem meanRow_apply (M : FVec Ideal S10000x128 .f32) (u : Fin 1) (j : Fin 128) :
    meanRow M (ix2 u j) = Cert.Spec.mu fun r => M (ix2 r j) := by
  unfold meanRow Cert.Spec.mu
  rw [divf_apply, sumRow_apply]
  rfl

/-- Each entry less its column's mean. -/
private def centred (M : FVec Ideal S10000x128 .f32) : FVec Ideal S10000x128 .f32 :=
  subf M (broadcastTo S10000x128 (meanRow M) broadcasts_S1x128_S10000x128)

private theorem centred_apply (M : FVec Ideal S10000x128 .f32) (r : Fin 10000) (j : Fin 128) :
    centred M (ix2 r j) = M (ix2 r j) - Cert.Spec.mu fun r' => M (ix2 r' j) := by
  unfold centred
  rw [subf_apply, broadcastTo_1b_ab_apply, meanRow_apply]

/-- The columns' variances as a one-row matrix. -/
private def varRow (M : FVec Ideal S10000x128 .f32) : FVec Ideal S1x128 .f32 :=
  divf (sumRow (mulf (centred M) (centred M))) (broadcast S1x128 (Scalar.ofBits (F := Ideal) .f32 0x461C4000#32))

private theorem varRow_apply (M : FVec Ideal S10000x128 .f32) (u : Fin 1) (j : Fin 128) :
    varRow M (ix2 u j) = Cert.Spec.var fun r => M (ix2 r j) := by
  unfold varRow Cert.Spec.var
  rw [divf_apply, sumRow_apply]
  simp only [mulf_apply, centred_apply]
  rfl

/-- The reciprocal square root of variance plus offset, as a one-row matrix. -/
private def scaleRow (M : FVec Ideal S10000x128 .f32) : FVec Ideal S1x128 .f32 :=
  rsqrt (addf (varRow M) (broadcast S1x128 (Scalar.ofBits (F := Ideal) .f32 0x3727C5AC#32)))

private theorem scaleRow_apply (M : FVec Ideal S10000x128 .f32) (u : Fin 1) (j : Fin 128) :
    scaleRow M (ix2 u j) = Ideal.rsqrt ((Cert.Spec.var fun r => M (ix2 r j)) + Cert.Spec.epsLit) := by
  unfold scaleRow
  show Ideal.rsqrt (addf (varRow M) _ (ix2 u j)) = _
  rw [addf_apply, varRow_apply]
  rfl

/-! ## The stored values -/

/-- The normalised, scaled, shifted and clipped matrix the kernel builds from a product matrix `M`, the scale row
    `g` and the shift row `b`, operation by operation as the kernel does. -/
private def normalised (M : FVec Ideal S10000x128 .f32) (g b : FVec Ideal S1x128 .f32) : FVec Ideal S10000x128 .bf16 :=
  shapeCast S10000x128
    (truncf .bf16
      (maximumf
        (addf
          (mulf
            (mulf (centred M) (broadcastTo S10000x128 (scaleRow M) broadcasts_S1x128_S10000x128))
            (broadcastTo S10000x128 (shapeCast S1x128 g shapeCasts_S1x128_S1x128) broadcasts_S1x128_S10000x128))
          (broadcastTo S10000x128 (shapeCast S1x128 b shapeCasts_S1x128_S1x128) broadcasts_S1x128_S10000x128))
        (broadcast S10000x128 (Scalar.ofBits (F := Ideal) .f32 0x00000000#32)))
      bitsLt_bf16_f32)
    shapeCasts_S10000x128_S10000x128

/-- At `(r, j)` it is the activation of column `j` of `M` at row `r`: the change of format is the identity on the
    extended reals, and each one-row matrix is read at its one row. -/
private theorem normalised_apply (M : FVec Ideal S10000x128 .f32) (g b : FVec Ideal S1x128 .f32) (r : Fin 10000) (j : Fin 128) :
    normalised M g b (ix2 r j)
      = Cert.Spec.actMul (fun r' => M (ix2 r' j)) (g (ix2 (0 : Fin 1) j)) (b (ix2 (0 : Fin 1) j)) r := by
  unfold normalised Cert.Spec.actMul
  rw [shapeCast_self, truncf_apply, maximumf_apply, addf_apply, mulf_apply, mulf_apply, centred_apply,
    broadcastTo_1b_ab_apply, broadcastTo_1b_ab_apply, broadcastTo_1b_ab_apply, shapeCast_self, shapeCast_self,
    scaleRow_apply]
  rfl

theorem pay1_apply (x0 : Vec Ideal S10000x128 .f32) (x1 : Vec Ideal S128x128 .f32) (x2 x3 : Vec Ideal S1x128 .f32)
    (r : Fin 10000) (j : Fin 128) :
    k0_pay1 (F := Ideal) x0 x1 x2 x3 (ix2 r j)
      = Cert.Spec.actMul (fun r' : Fin 10000 => ∑ c : Fin 128, x0 (ix2 r' c) * x1 (ix2 c j))
          (x2 (ix2 (0 : Fin 1) j)) (x3 (ix2 (0 : Fin 1) j)) r := by
  have e : k0_pay1 (F := Ideal) x0 x1 x2 x3
      = normalised (matmul (F := Ideal) dot_S10000x128_S128x128_S10000x128_1_0_0_1_n_n none
          (shapeCast S10000x128 x0 shapeCasts_S10000x128_S10000x128) x1 (constant S10000x128 .f32 0x00000000#32)) x2 x3 := rfl
  rw [e, normalised_apply, shapeCast_self]
  exact congrArg (fun h => Cert.Spec.actMul h (x2 (ix2 (0 : Fin 1) j)) (x3 (ix2 (0 : Fin 1) j)) r)
    (funext fun r' => featW_apply x0 x1 r' j)

theorem pay2_apply (a : Vec Ideal S400x10000 .f32) (s : Vec Ideal S10000x128 .bf16) (p : Fin 400) (q : Fin 128) :
    k0_pay2 (F := Ideal) a s (ix2 p q) = ∑ k : Fin 10000, a (ix2 p k) * s (ix2 k q) := by
  unfold k0_pay2
  exact adjS_apply (truncf .bf16 a bitsLt_bf16_f32) s p q

end Cert.KernelIdeal.KerPay

end
-- ==== Proof.KerValue.lean ====
/-
  The kernel's value: what its result array holds after the run, read off the generated frame run.

  The grid has 25 points; point `t` sees rows `400 t … 400 t + 399` of the adjacency matrix and the four small
  operands whole. The scratch is written at point 0 and never again, so after EVERY point it holds the same array
  `feat` — the normalised, clipped features — and the output block of point `t` is the adjacency row block times
  `feat` (induction over the points). The 25 output blocks tile the 10000 × 128 result of the call, which the host
  then reshapes under a unit batch axis.
-/
import proofs.«174554_g26774826123627_cont_sun_c4_362_7_alg».proof.Proof.KerPieces
import proofs.«174554_g26774826123627_cont_sun_c4_362_7_alg».proof.Proof.KerPay
import proofs.«174554_g26774826123627_cont_sun_c4_362_7_alg».proof.Proof.Spec
import Idealize.ShloMosaic.Lib.Pipeline.Value
import Idealize.ShloMosaic.Lib.StableHlo.Run
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen

section AnyInstance

variable {F : FTy → Type} [FloatOps F]
variable (m : (ℓ : Loc nD τ sig) → Buf (Elt F) ℓ) (ρ : Dev nD → PrngReg)

/-! ## The operand arrays as the region finds them, by name -/

/-- The flattened features, 10000 × 128. -/
abbrev feats (c : Dev nD) : Vec F S10000x128 .f32 := V m c main_call0_v0
/-- The weights, 128 × 128. -/
abbrev wts (c : Dev nD) : Vec F S128x128 .f32 := V m c main_arg2
/-- The scale, as a 1 × 128 row. -/
abbrev gam (c : Dev nD) : Vec F S1x128 .f32 := V m c main_call0_v1
/-- The shift, as a 1 × 128 row. -/
abbrev bet (c : Dev nD) : Vec F S1x128 .f32 := V m c main_call0_v2
/-- The adjacency matrix, 10000 × 10000. -/
abbrev adj (c : Dev nD) : Vec F S10000x10000 .f32 := V m c main_arg1

/-- The scratch's contents: the normalised, clipped features. -/
def feat (c : Dev nD) : Vec F S10000x128 .bf16 := k0_pay1 (feats m c) (wts m c) (gam m c) (bet m c)

/-- The adjacency row block point `t` sees. -/
abbrev ablk (c : Dev nD) (t : Fin cfg0.N) : Vec F S400x10000 .f32 := iblk m c 4 t

/-! ## The printed index maps, decided once over the grid -/

/-- The four small operands sit at block (0, 0) at every point; the adjacency and output blocks at (t, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The blocks read through their windows -/

/-- The features' one block is the whole array. -/
theorem iblk0_eq (c : Dev nD) (t : Fin cfg0.N) : (iblk m c 0 t : Vec F S10000x128 .f32) = feats m c := by
  obtain ⟨e0, e1, -⟩ := idx_facts t
  funext j
  unfold iblk
  rw [View.read_apply]
  show V m c main_call0_v0 (((cfg0.win 0).blk t).view.emb j) = V m c main_call0_v0 j
  congr 1
  funext a; apply Fin.ext
  match a with
  | ⟨0, _⟩ => show win0_0.index t (0 : Fin 2) * 10000 + 1 * (j 0).val = (j 0).val; rw [e0]; omega
  | ⟨1, _⟩ => show win0_0.index t (1 : Fin 2) * 128 + 1 * (j 1).val = (j 1).val; rw [e1]; omega

/-- The weights' one block is the whole array. -/
theorem iblk1_eq (c : Dev nD) (t : Fin cfg0.N) : (iblk m c 1 t : Vec F S128x128 .f32) = wts m c := by
  obtain ⟨-, -, e0, e1, -⟩ := idx_facts t
  funext j
  unfold iblk
  rw [View.read_apply]
  show V m c main_arg2 (((cfg0.win 1).blk t).view.emb j) = V m c main_arg2 j
  congr 1
  funext a; apply Fin.ext
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

/-- The scale's one block is the whole row. -/
theorem iblk2_eq (c : Dev nD) (t : Fin cfg0.N) : (iblk m c 2 t : Vec F S1x128 .f32) = gam m c := by
  obtain ⟨-, -, -, -, e0, e1, -⟩ := idx_facts t
  funext j
  unfold iblk
  rw [View.read_apply]
  show V m c main_call0_v1 (((cfg0.win 2).blk t).view.emb j) = V m c main_call0_v1 j
  congr 1
  funext a; apply Fin.ext
  match a with
  | ⟨0, _⟩ => show win0_2.index t (0 : Fin 2) * 1 + 1 * (j 0).val = (j 0).val; rw [e0]; omega
  | ⟨1, _⟩ => show win0_2.index t (1 : Fin 2) * 128 + 1 * (j 1).val = (j 1).val; rw [e1]; omega

/-- The shift's one block is the whole row. -/
theorem iblk3_eq (c : Dev nD) (t : Fin cfg0.N) : (iblk m c 3 t : Vec F S1x128 .f32) = bet m c := by
  obtain ⟨-, -, -, -, -, -, e0, e1, -⟩ := idx_facts t
  funext j
  unfold iblk
  rw [View.read_apply]
  show V m c main_call0_v2 (((cfg0.win 3).blk t).view.emb j) = V m c main_call0_v2 j
  congr 1
  funext a; apply Fin.ext
  match a with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

/-- Row `p` of point `t`'s adjacency block is row `400 t + p` of the matrix. -/
theorem ablk_apply (c : Dev nD) (t : Fin cfg0.N) (p : Fin 400) (k : Fin 10000) (hp : 400 * t.val + p.val < 10000) :
    ablk m c t (ix2 p k) = adj m c (ix2 ⟨400 * t.val + p.val, hp⟩ k) := by
  obtain ⟨-, -, -, -, -, -, -, -, e0, e1, -⟩ := idx_facts t
  show iblk m c 4 t (ix2 p k) = _
  unfold iblk
  rw [View.read_apply]
  show V m c main_arg1 (((cfg0.win 4).blk t).view.emb (ix2 p k)) = V m c main_arg1 (ix2 ⟨400 * t.val + p.val, hp⟩ k)
  congr 1
  funext a; apply Fin.ext
  match a with
  | ⟨0, _⟩ => show win0_4.index t (0 : Fin 2) * 400 + 1 * p.val = 400 * t.val + p.val; rw [e0]; omega
  | ⟨1, _⟩ => show win0_4.index t (1 : Fin 2) * 10000 + 1 * k.val = k.val; rw [e1]; omega

/-! ## What the staging buffers hold after each point -/

/-- After point `n` the output's buffer holds the adjacency row block of that point times `feat`, and the scratch
    holds `feat`: at point 0 both are written; at a later point the scratch is what the point before left. -/
theorem outs_eq (c : Dev nD) : ∀ (n : ℕ) (h : n < cfg0.N),
    outsAt0 m c n h = (k0_pay2 (ablk m c ⟨n, h⟩) (feat m c), feat m c)
  | 0, h => by
    rw [outsAt0_A m c ⟨0, h⟩ rfl]
    refine Prod.ext ?_ ?_
    · dsimp only
      refine (KerPieces.out_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩)).trans ?_
      rw [iblk0_eq, iblk1_eq, iblk2_eq, iblk3_eq]; rfl
    · dsimp only
      refine (KerPieces.scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩)).trans ?_
      rw [iblk0_eq, iblk1_eq, iblk2_eq, iblk3_eq]; rfl
  | n + 1, h => by
    have hN : cfg0.N = 25 := N_0
    have hB : ¬(⟨n + 1, h⟩ : Fin cfg0.N).val % 25 = 0 := by dsimp only; omega
    rw [outsAt0_B m c ⟨n + 1, h⟩ hB]
    have ih : outsAt0 m c ((⟨n + 1, h⟩ : Fin cfg0.N).val - 1) (Nat.lt_of_le_of_lt (Nat.sub_le _ _) (⟨n + 1, h⟩ : Fin cfg0.N).isLt)
        = (k0_pay2 (ablk m c ⟨n, Nat.lt_of_succ_lt h⟩) (feat m c), feat m c) := outs_eq c n (Nat.lt_of_succ_lt h)
    refine Prod.ext ?_ ?_
    · dsimp only
      refine (KerPieces.out_later c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => hB ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) _).trans ?_
      rw [ih]
    · dsimp only
      unfold sout0_B_0
      rw [ih]

end AnyInstance

section AtIdeal

variable (m : (ℓ : Loc nD τ sig) → Buf (Elt Ideal) ℓ) (ρ : Dev nD → PrngReg)

/-! ## The call's result array -/

/-- The 10000 × 128 array the call leaves: entry `(i, j)` is `∑ₖ adj (i, k) · feat (k, j)`. -/
def agg (c : Dev nD) : Vec Ideal S10000x128 .f32 :=
  fun i => ∑ k : Fin 10000, adj m c (ix2 (i 0) k) * feat m c (ix2 k (i 1))

/-- WHAT POINT `t` WRITES BACK is rows `400 t … 400 t + 399` of `agg`: the block product read at an index,
    its adjacency factor read through the window. -/
theorem flushed_eq (c : Dev nD) (t : Fin cfg0.N) :
    (dats m 0 c).flushed 5 t = ((cfg0.win 5).blk t).view.read (Elt Ideal) (agg m c) := by
  have hN : cfg0.N = 25 := N_0
  obtain ⟨-, -, -, -, -, -, -, -, -, -, e0, e1⟩ := idx_facts t
  show (cfg0.win 5).cut (grid0.coords t) ((dats m 0 c).after 5 t) = _
  rw [after0_5, outs_eq]
  funext j
  obtain ⟨p, q, rfl⟩ : ∃ (p : Fin 400) (q : Fin 128), j = ix2 p q := ⟨j 0, j 1, eq_ix2 j⟩
  have hp : 400 * t.val + p.val < 10000 := by have := t.isLt; have := p.isLt; omega
  have he : ((cfg0.win 5).blk t).view.emb (ix2 p q) = ix2 (⟨400 * t.val + p.val, hp⟩ : Fin 10000) q := by
    funext a; apply Fin.ext
    match a with
    | ⟨0, _⟩ => show win0_5.index t (0 : Fin 2) * 400 + 1 * p.val = 400 * t.val + p.val; rw [e0]; omega
    | ⟨1, _⟩ => show win0_5.index t (1 : Fin 2) * 128 + 1 * q.val = q.val; rw [e1]; omega
  show k0_pay2 (ablk m c t) (feat m c) (ix2 p q) = agg m c (((cfg0.win 5).blk t).view.emb (ix2 p q))
  rw [he, KerPay.pay2_apply]
  unfold agg
  exact Finset.sum_congr rfl fun k _ => by rw [ablk_apply m c t p k hp]

/-- An index of the result array is in point `t`'s block iff each coordinate is in the block's range. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_call0_v3).slice (win0_5.rect t)).set ↔ _
  rw [View.set_slice_whole, Rect.mem_set_unit]
  exact Iff.rfl

/-- The 25 row blocks tile the array: row `r` is in the block of point `r / 400`. -/
theorem cover (i : S10000x128.Idx) : ∃ t : Fin cfg0.N, (cfg0.win 5).flush t = true ∧ i ∈ ((cfg0.win 5).blk t).view.set := by
  have hN : cfg0.N = 25 := N_0
  have hi0 : (i 0).val < 10000 := (i 0).isLt
  have hi1 : (i 1).val < 128 := (i 1).isLt
  have ht : (i 0).val / 400 < cfg0.N := by rw [hN]; omega
  obtain ⟨-, -, -, -, -, -, -, -, -, -, e0, e1⟩ := idx_facts ⟨(i 0).val / 400, ht⟩
  refine ⟨⟨(i 0).val / 400, ht⟩, flush0_5 _, ?_⟩
  rw [mem_blk]
  intro a
  match a with
  | ⟨0, _⟩ =>
    show win0_5.index ⟨(i 0).val / 400, ht⟩ (0 : Fin 2) * 400 ≤ (i 0).val ∧ (i 0).val < win0_5.index ⟨(i 0).val / 400, ht⟩ (0 : Fin 2) * 400 + 400
    rw [e0]; dsimp only; omega
  | ⟨1, _⟩ =>
    show win0_5.index ⟨(i 0).val / 400, ht⟩ (1 : Fin 2) * 128 ≤ (i 1).val ∧ (i 1).val < win0_5.index ⟨(i 0).val / 400, ht⟩ (1 : Fin 2) * 128 + 128
    rw [e1]; omega

/-- So the call's result array ends holding `agg`. -/
theorem final (c : Dev nD) : (dats m 0 c).arrAt 5 cfg0.N = agg m c :=
  (dats m 0 c).arrAt_eq_of_cover 5 (agg m c) (fun t _ => flushed_eq m c t) (fun i => cover i)

/-! ## The host's reshapes before the region -/

/-- The features the region finds are the argument with its unit batch axis dropped. -/
theorem feats_apply (c : Dev nD) (r : Fin 10000) (k : Fin 128) :
    feats m c (ix2 r k) = m ((c.tc : Thread nD τ).loc main_arg0) (ix3 (0 : Fin 1) r k) := by
  have e : (feats m c : S10000x128.Idx → EReal)
      = shapeCast S10000x128 (m ((c.tc : Thread nD τ).loc main_arg0)) shapeCasts_S1x10000x128_S10000x128 := by
    show StableHlo.after hostOps0 (fun b => m (c, b)) (Proc.devRef .tc main_call0_v0) = _
    after_results; rfl
  rw [e]
  exact shapeCast_1ab_ab_apply _ _ r k

/-- The scale row the region finds is the argument vector under a unit row axis. -/
theorem gam_apply (c : Dev nD) (j : Fin 128) :
    gam m c (ix2 (0 : Fin 1) j) = m ((c.tc : Thread nD τ).loc main_arg3) (ix1 j) := by
  have e : (gam m c : S1x128.Idx → EReal)
      = shapeCast S1x128 (m ((c.tc : Thread nD τ).loc main_arg3)) shapeCasts_S128_S1x128 := by
    show StableHlo.after hostOps0 (fun b => m (c, b)) (Proc.devRef .tc main_call0_v1) = _
    after_results; rfl
  rw [e]
  exact shapeCast_a_1a_apply _ _ 0 j

/-- The shift row likewise. -/
theorem bet_apply (c : Dev nD) (j : Fin 128) :
    bet m c (ix2 (0 : Fin 1) j) = m ((c.tc : Thread nD τ).loc main_arg4) (ix1 j) := by
  have e : (bet m c : S1x128.Idx → EReal)
      = shapeCast S1x128 (m ((c.tc : Thread nD τ).loc main_arg4)) shapeCasts_S128_S1x128 := by
    show StableHlo.after hostOps0 (fun b => m (c, b)) (Proc.devRef .tc main_call0_v2) = _
    after_results; rfl
  rw [e]
  exact shapeCast_a_1a_apply _ _ 0 j

/-- The scratch at `(k, j)`: the activation, in its reciprocal-square-root form, of column `j` of `H · W`. -/
theorem feat_apply (c : Dev nD) (k : Fin 10000) (j : Fin 128) :
    feat m c (ix2 k j)
      = Cert.Spec.actMul (Cert.Spec.ht (m ((c.tc : Thread nD τ).loc main_arg0)) (m ((c.tc : Thread nD τ).loc main_arg2)) j)
          (m ((c.tc : Thread nD τ).loc main_arg3) (ix1 j)) (m ((c.tc : Thread nD τ).loc main_arg4) (ix1 j)) k := by
  unfold feat
  rw [KerPay.pay1_apply]
  have h1 : (fun r' : Fin 10000 => ∑ c' : Fin 128, feats m c (ix2 r' c') * wts m c (ix2 c' j))
      = Cert.Spec.ht (m ((c.tc : Thread nD τ).loc main_arg0)) (m ((c.tc : Thread nD τ).loc main_arg2)) j := by
    funext r'
    unfold Cert.Spec.ht
    refine Finset.sum_congr rfl fun c' _ => ?_
    rw [feats_apply, show wts m c = m ((c.tc : Thread nD τ).loc main_arg2) from V_main_arg2 m c]
  rw [h1, gam_apply, bet_apply]

/-! ## The host's reshape after the region, and the run -/

/-- The result buffer after the host's last line: `agg` under a unit batch axis. -/
theorem tail_eq (c : Dev nD) :
    Pipeline.afterTail₀ cfgs (dats m) 0 (V0 m) [hostOps1] c main_v0
      = shapeCast S1x10000x128 (agg m c) shapeCasts_S10000x128_S1x10000x128 := by
  have e : Pipeline.withArrays spec0 c (V0 m c) (fun w => (dats m 0 c).arrAt w cfg0.N) (Proc.devRef .tc main_call0_v3) = agg m c :=
    (Pipeline.withArrays_arr spec0 launch0.win.arr_inj c _ _ 5).trans (final m c)
  unfold Pipeline.afterTail₀
  show StableHlo.after hostOps1 _ (Proc.devRef .tc main_v0) = _
  after_results
  exact congrArg (fun X => shapeCast S1x10000x128 X shapeCasts_S10000x128_S1x10000x128) e

/-- The result buffer's contents are the specification's layer with the reciprocal-square-root activation. -/
theorem result_eq (c : Dev nD) :
    shapeCast S1x10000x128 (agg m c) shapeCasts_S10000x128_S1x10000x128
      = Cert.Spec.layer Cert.Spec.actMul (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext x
  obtain ⟨u, i, j, rfl⟩ : ∃ (u : Fin 1) (i : Fin 10000) (j : Fin 128), x = ix3 u i j := ⟨x 0, x 1, x 2, eq_ix3 x⟩
  rw [shapeCast_ab_1ab_apply]
  unfold agg Cert.Spec.layer
  refine Finset.sum_congr rfl fun k _ => ?_
  show adj m c (ix2 i k) * feat m c (ix2 k j) = _
  rw [feat_apply, show adj m c = m ((c.tc : Thread nD τ).loc main_arg1) from V_main_arg1 m c]

/-- THE RUN, READ: every weakly fair execution ends with the result buffer at the specification's layer (in its
    reciprocal-square-root form) of the five arguments, and the arguments as launched. -/
theorem run : θ_run defs (onTc (τ := τ) (main (F := Ideal))) ⟨m, fun _ => 0, ρ⟩ fun r => ∀ c : Dev nD,
      r.2.mem ((c.tc : Thread nD τ).loc main_v0)
        = Cert.Spec.layer Cert.Spec.actMul (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v0 (Pipeline.mem_restRefs_of main_v0 (by decide) (by decide))).trans (tail_eq m c)).trans (result_eq m c),
      ((h c).2 main_arg0 (Pipeline.mem_restRefs_of main_arg0 (by decide) (by decide))).trans (W_main_arg0 m (dats m) c),
      ((h c).1 4).trans (((dats m 0 c).arrAt_in 4 rfl _).trans ((A_eq m c 4).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end AtIdeal

end Cert.KernelIdeal.KerValue

end
-- ==== Proof.RefTerm.lean ====
/-
  What the reference program computes, as ONE term of its five arguments' contents, stage by stage and at any float
  instance: the features flattened and multiplied by the weights (`pre`); each column's mean (`mean`); the
  variance as jnp's own `var` takes it, centring by a mean it recomputes (`centred`), summing the squares and
  dividing by the row count less the zero correction, under a guard that this divisor is positive (`variance`); the
  normalised, scaled, shifted and clipped activation (`act`); and the aggregation by the adjacency matrix between
  two unit-axis shuffles (`term`).
-/
import proofs.«174554_g26774826123627_cont_sun_c4_362_7_alg».proof.Proof.Gen.ReferenceIdeal

noncomputable section

namespace Cert.ReferenceIdeal.RefTerm

open Idealize.ShloMosaic Cert.ReferenceIdeal Cert.ReferenceIdeal.Gen

variable {F : FTy → Type} [FloatOps F]

/-- The scalar `+0.0`: every sum's initial value, and the clip level. -/
def zero : FVec F S_ .f32 := constant S_ .f32 0x00000000#32
/-- The scalar `10000.0`: the row count. -/
def rows : FVec F S_ .f32 := constant S_ .f32 0x461C4000#32

/-- `H` flattened to 10000 × 128, times `W`. -/
def pre (H : FVec F S1x10000x128 .f32) (W : FVec F S128x128 .f32) : FVec F S10000x128 .f32 :=
  Host.dotGeneral dot_S10000x128_S128x128_S10000x128_1_0_0_1_n_n none
    (shapeCast S10000x128 H shapeCasts_S1x10000x128_S10000x128) W

/-- Each column's sum over the rows. -/
def colSum (x : FVec F S10000x128 .f32) : FVec F S128 .f32 :=
  Host.reduceAdd x zero reducesTo_S10000x128_S128_d0 h_S_

/-- Each column's mean. -/
def mean (x : FVec F S10000x128 .f32) : FVec F S128 .f32 :=
  Host.divf (colSum x) (broadcastInDim S128 ![] bcast_S_S128 rows)

/-- The deviations `var` squares: from a mean it takes again, kept as a row vector. -/
def centred (x : FVec F S10000x128 .f32) : FVec F S10000x128 .f32 :=
  subf x (broadcastInDim S10000x128 ![0, 1] bcast_S1x128_S10000x128_0_1
    (Host.divf (broadcastInDim S1x128 ![1] bcast_S128_S1x128_1 (colSum x)) (broadcastInDim S1x128 ![] bcast_S_S1x128 rows)))

/-- The divisor of the variance: the row count less the correction `0`. -/
def count : FVec F S_ .f32 := subf (rows (F := F)) (sitofp (F := F) .f32 (constantI S_ 32 0#32))

/-- Each column's biased variance, guarded: where the divisor is not positive the result is the quiet-NaN pattern. -/
def variance (x : FVec F S10000x128 .f32) : FVec F S128 .f32 :=
  select (broadcastInDim S128 ![] bcast_S_S128 (cmpf .ogt (count (F := F)) (zero (F := F))))
    (Host.divf (colSum (mulf (centred x) (centred x))) (broadcastInDim S128 ![] bcast_S_S128 count))
    (broadcastInDim S128 ![] bcast_S_S128 (constant S_ .f32 0x7FC00000#32))

/-- A vector of 128 copied down the 10000 rows. -/
def down (v : FVec F S128 .f32) : FVec F S10000x128 .f32 :=
  broadcastInDim S10000x128 ![0, 1] bcast_S1x128_S10000x128_0_1 (broadcastInDim S1x128 ![1] bcast_S128_S1x128_1 v)

/-- The activation: centred by the column mean, divided by `sqrt (variance + ε)`, times `γ`, plus `β`, clipped at zero. -/
def act (x : FVec F S10000x128 .f32) (g b : FVec F S128 .f32) : FVec F S10000x128 .f32 :=
  maximumf
    (addf
      (mulf
        (Host.divf (subf x (down (mean x)))
          (down (Host.sqrt (addf (variance x) (broadcastInDim S128 ![] bcast_S_S128 (constant S_ .f32 0x3727C5AC#32))))))
        (down g))
      (down b))
    (broadcastInDim S10000x128 ![] bcast_S_S10000x128 zero)

/-- The result: the activation with a unit batch axis put in front, moved behind the rows and dropped again; the
    adjacency matrix times that; and the unit axis put back in front the same way. -/
def term (H : FVec F S1x10000x128 .f32) (A : FVec F S10000x10000 .f32) (W : FVec F S128x128 .f32)
    (g b : FVec F S128 .f32) : FVec F S1x10000x128 .f32 :=
  transpose S1x10000x128 [1, 0, 2]
    (shapeCast S10000x1x128
      (Host.dotGeneral dot_S10000x10000_S10000x128_S10000x128_1_0_0_1_n_n none A
        (shapeCast S10000x128
          (transpose S10000x1x128 [1, 0, 2]
            (shapeCast S1x10000x128 (act (pre H W) g b) shapeCasts_S10000x128_S1x10000x128)
            transposes_S1x10000x128_S10000x1x128_1_0_2)
          shapeCasts_S10000x1x128_S10000x128))
      shapeCasts_S10000x128_S10000x1x128)
    transposes_S10000x1x128_S1x10000x128_1_0_2

end Cert.ReferenceIdeal.RefTerm

end
-- ==== Proof.RefRun.lean ====
/-
  The reference program's run: its @main is a straight line of host operations once the three functions it calls
  (the variance, its guard's select, the clip) are unfolded at their calls, so every weakly fair execution ends with
  the result buffer at the composed term `RefTerm.term` of the five arguments' launch contents, the arguments unchanged.
-/
import proofs.«174554_g26774826123627_cont_sun_c4_362_7_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's fifty-five operations in order, each callee's listed where it is called, over that call's buffers: the
    product of the flattened features and the weights, the column sums and means (eight); the variance's nineteen — the
    mean taken again as a row vector, the deviations, their squares, the divisor `10000 - 0`, the sum of squares over it,
    the guard `divisor > 0` and the quiet-NaN word — and its select's three (that word converted to its own type,
    broadcast, the choice); the normalisation, scale and shift (sixteen); the clip's three (the zero, its broadcast, the
    maximum); and the aggregation between the two unit-axis shuffles (six). -/
abbrev ops : List (HloOp τ sig (Elt F)) :=
  [ reshape main_arg0 main_v0 rfl shapeCasts_S1x10000x128_S10000x128,
    binary main_v0 main_arg2 main_v1 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    nullary main_cst (constant S_ .f32 0x00000000#32),
    binary main_v1 main_cst main_v2 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    nullary main_cst_0 (constant S_ .f32 0x461C4000#32),
    unary main_cst_0 main_v3 (broadcastInDim S128 ![] bcast_S_S128 : (⟨S_, .f32⟩ : BufTy).Contents (Elt F) → (⟨S128, .f32⟩ : BufTy).Contents (Elt F)),
    binary main_v2 main_v3 main_v4 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call0.cst (constant S_ .f32 0x00000000#32),
    TRef.binary (.of main_v1) main_call0.cst main_call0.v0 (fun x v => Host.reduceAdd x v reducesTo_S10000x128_S128_d0 h_S_),
    TRef.unary main_call0.v0 main_call0.v1 (broadcastInDim S1x128 ![1] bcast_S128_S1x128_1),
    TRef.nullary main_call0.cst_0 (constant S_ .f32 0x461C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S10000x128 ![0, 1] bcast_S1x128_S10000x128_0_1),
    TRef.binary (.of main_v1) main_call0.v4 main_call0.v5 subf,
    TRef.binary main_call0.v5 main_call0.v5 main_call0.v6 mulf,
    TRef.unary (.of main_c) main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v4 main_v6 (broadcastInDim S1x128 ![1] bcast_S128_S1x128_1 : (⟨S128, .f32⟩ : BufTy).Contents (Elt F) → (⟨S1x128, .f32⟩ : BufTy).Contents (Elt F)),
    unary main_v6 main_v7 (broadcastInDim S10000x128 ![0, 1] bcast_S1x128_S10000x128_0_1 : (⟨S1x128, .f32⟩ : BufTy).Contents (Elt F) → (⟨S10000x128, .f32⟩ : BufTy).Contents (Elt F)),
    binary main_v1 main_v7 main_v8 (subf : (⟨S10000x128, .f32⟩ : BufTy).Contents (Elt F) → (⟨S10000x128, .f32⟩ : BufTy).Contents (Elt F) → (⟨S10000x128, .f32⟩ : BufTy).Contents (Elt F)),
    nullary main_cst_1 (constant S_ .f32 0x3727C5AC#32),
    unary main_cst_1 main_v9 (broadcastInDim S128 ![] bcast_S_S128 : (⟨S_, .f32⟩ : BufTy).Contents (Elt F) → (⟨S128, .f32⟩ : BufTy).Contents (Elt F)),
    binary main_v5 main_v9 main_v10 (addf : (⟨S128, .f32⟩ : BufTy).Contents (Elt F) → (⟨S128, .f32⟩ : BufTy).Contents (Elt F) → (⟨S128, .f32⟩ : BufTy).Contents (Elt F)),
    unary main_v10 main_v11 (Host.sqrt : (⟨S128, .f32⟩ : BufTy).Contents (Elt F) → (⟨S128, .f32⟩ : BufTy).Contents (Elt F)),
    unary main_v11 main_v12 (broadcastInDim S1x128 ![1] bcast_S128_S1x128_1 : (⟨S128, .f32⟩ : BufTy).Contents (Elt F) → (⟨S1x128, .f32⟩ : BufTy).Contents (Elt F)),
    unary main_v12 main_v13 (broadcastInDim S10000x128 ![0, 1] bcast_S1x128_S10000x128_0_1 : (⟨S1x128, .f32⟩ : BufTy).Contents (Elt F) → (⟨S10000x128, .f32⟩ : BufTy).Contents (Elt F)),
    binary main_v8 main_v13 main_v14 (Host.divf : (⟨S10000x128, .f32⟩ : BufTy).Contents (Elt F) → (⟨S10000x128, .f32⟩ : BufTy).Contents (Elt F) → (⟨S10000x128, .f32⟩ : BufTy).Contents (Elt F)),
    unary main_arg3 main_v15 (broadcastInDim S1x128 ![1] bcast_S128_S1x128_1 : (⟨S128, .f32⟩ : BufTy).Contents (Elt F) → (⟨S1x128, .f32⟩ : BufTy).Contents (Elt F)),
    unary main_v15 main_v16 (broadcastInDim S10000x128 ![0, 1] bcast_S1x128_S10000x128_0_1 : (⟨S1x128, .f32⟩ : BufTy).Contents (Elt F) → (⟨S10000x128, .f32⟩ : BufTy).Contents (Elt F)),
    binary main_v14 main_v16 main_v17 (mulf : (⟨S10000x128, .f32⟩ : BufTy).Contents (Elt F) → (⟨S10000x128, .f32⟩ : BufTy).Contents (Elt F) → (⟨S10000x128, .f32⟩ : BufTy).Contents (Elt F)),
    unary main_arg4 main_v18 (broadcastInDim S1x128 ![1] bcast_S128_S1x128_1 : (⟨S128, .f32⟩ : BufTy).Contents (Elt F) → (⟨S1x128, .f32⟩ : BufTy).Contents (Elt F)),
    unary main_v18 main_v19 (broadcastInDim S10000x128 ![0, 1] bcast_S1x128_S10000x128_0_1 : (⟨S1x128, .f32⟩ : BufTy).Contents (Elt F) → (⟨S10000x128, .f32⟩ : BufTy).Contents (Elt F)),
    binary main_v17 main_v19 main_v20 (addf : (⟨S10000x128, .f32⟩ : BufTy).Contents (Elt F) → (⟨S10000x128, .f32⟩ : BufTy).Contents (Elt F) → (⟨S10000x128, .f32⟩ : BufTy).Contents (Elt F)),
    TRef.nullary main_call1.cst (constant S_ .f32 0x00000000#32),
    TRef.unary main_call1.cst main_call1.v0 (broadcastInDim S10000x128 ![] bcast_S_S10000x128),
    TRef.binary (.of main_v20) main_call1.v0 main_call1.v1 maximumf,
    reshape main_v21 main_v22 rfl shapeCasts_S10000x128_S1x10000x128,
    unary main_v22 main_v23 ((transpose S10000x1x128 [1, 0, 2] · transposes_S1x10000x128_S10000x1x128_1_0_2) : (⟨S1x10000x128, .f32⟩ : BufTy).Contents (Elt F) → (⟨S10000x1x128, .f32⟩ : BufTy).Contents (Elt F)),
    reshape main_v23 main_v24 rfl shapeCasts_S10000x1x128_S10000x128,
    binary main_arg1 main_v24 main_v25 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    reshape main_v25 main_v26 rfl shapeCasts_S10000x128_S10000x1x128,
    unary main_v26 main_v27 ((transpose S1x10000x128 [1, 0, 2] · transposes_S10000x1x128_S1x10000x128_1_0_2) : (⟨S10000x1x128, .f32⟩ : BufTy).Contents (Elt F) → (⟨S1x10000x128, .f32⟩ : BufTy).Contents (Elt F)) ]

set_option maxRecDepth 1024 in
/-- @main is that straight line: the three functions' definitions unfolded at their calls and the records at their
    fields, both sides are one chain of steps once sequencing is reassociated. -/
theorem main_eq (c : Dev nD) : main (F := F) c = seq ops := by
  simp only [main, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨reshape_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., reshape_bufs_sub .., unary_bufs_sub .., reshape_bufs_sub .., binary_bufs_sub .., reshape_bufs_sub ..,
    unary_bufs_sub ..⟩

/-- The fold at the result buffer is the composed term: each operation's result read at its own buffer and passed over
    at every other, what is left is the stages of `RefTerm.term` written out — the typed references' transports are the
    identity at these literal references, and the select's converted operand is its operand. -/
theorem out_eq (V : Valuation τ sig (Elt F)) :
    after ops V (main_v27 : DevRef τ sig)
      = RefTerm.term (V (main_arg0 : DevRef τ sig)) (V (main_arg1 : DevRef τ sig)) (V (main_arg2 : DevRef τ sig))
          (V (main_arg3 : DevRef τ sig)) (V (main_arg4 : DevRef τ sig)) := by
  after_results_simp
  unfold RefTerm.term RefTerm.act RefTerm.down RefTerm.variance RefTerm.centred RefTerm.mean RefTerm.colSum RefTerm.pre
    RefTerm.count RefTerm.rows RefTerm.zero
  rfl

/-! No operation writes an argument's buffer: the fold leaves each at its launch contents. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

/-- At the compiled mesh, for any float values, from any memory with zero counters: every weakly fair execution of
    @main terminates with the result buffer at the composed term of the five arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
        = RefTerm.term (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  exact (θ_run defs _ _).mono
    (fun _ h c => ⟨(h c main_v27).trans (out_eq _), (h c main_arg0).trans (arg0_eq _), (h c main_arg1).trans (arg1_eq _),
      (h c main_arg2).trans (arg2_eq _), (h c main_arg3).trans (arg3_eq _), (h c main_arg4).trans (arg4_eq _)⟩)
    (run_seq scopedRefs_eq scopedSems_eq defs main (fun _ => ops) main_eq (fun _ => ops_sub) m ρ)

end Cert.ReferenceIdeal.RefRun

end
-- ==== Proof.RefRead.lean ====
/-
  The reference's term read at an index, at the ideal instance: entry `(0, i, j)` of its result is
  `∑ₖ A (i, k) · act (k, j)` with the activation in its quotient form — the specification's layer.
-/
import proofs.«174554_g26774826123627_cont_sun_c4_362_7_alg».proof.Proof.RefTerm
import proofs.«174554_g26774826123627_cont_sun_c4_362_7_alg».proof.Proof.Spec
import Idealize.ShloMosaic.Lib.Pipeline.Value
import Idealize.ShloMosaic.Lib.ValueLayout
import Idealize.ShloMosaic.Lib.IdealHost

noncomputable section

open scoped BigOperators

namespace Cert.ReferenceIdeal.RefRead

open Idealize.ShloMosaic Idealize.ShloMosaic.ValueIdx Cert.ReferenceIdeal Cert.ReferenceIdeal.Gen

/-- The flattened features times the weights, read at `(r, j)`: the sum over the 128 feature columns. -/
private theorem pre_apply (H : FVec Ideal S1x10000x128 .f32) (W : FVec Ideal S128x128 .f32) (r : Fin 10000) (j : Fin 128) :
    RefTerm.pre (F := Ideal) H W (ix2 r j) = Cert.Spec.ht H W j r := by
  unfold RefTerm.pre Cert.Spec.ht
  show FloatOps.dotGeneral _ none _ _ W (ix2 r j) = _
  rw [Ideal.dotGeneral_apply,
    ← Equiv.sum_comp (contrEquiv1 dot_S10000x128_S128x128_S10000x128_1_0_0_1_n_n 128 rfl rfl).symm]
  refine Finset.sum_congr rfl fun c _ => ?_
  have c2 := contrEquiv1_symm_val dot_S10000x128_S128x128_S10000x128_1_0_0_1_n_n 128 rfl rfl c
  have l2 : dot_S10000x128_S128x128_S10000x128_1_0_0_1_n_n.lhsIdx (ix2 r j)
      ((contrEquiv1 dot_S10000x128_S128x128_S10000x128_1_0_0_1_n_n 128 rfl rfl).symm c) = ix2 r c := by
    funext ax; apply Fin.ext
    match ax with
    | ⟨0, _⟩ => simp [DotDims.lhsIdx, dot_S10000x128_S128x128_S10000x128_1_0_0_1_n_n]; rfl
    | ⟨1, _⟩ => simp [DotDims.lhsIdx, dot_S10000x128_S128x128_S10000x128_1_0_0_1_n_n]; exact c2
  have r2 : dot_S10000x128_S128x128_S10000x128_1_0_0_1_n_n.rhsIdx (ix2 r j)
      ((contrEquiv1 dot_S10000x128_S128x128_S10000x128_1_0_0_1_n_n 128 rfl rfl).symm c) = ix2 c j := by
    funext ax; apply Fin.ext
    match ax with
    | ⟨0, _⟩ => simp [DotDims.rhsIdx, dot_S10000x128_S128x128_S10000x128_1_0_0_1_n_n]; exact c2
    | ⟨1, _⟩ => simp [DotDims.rhsIdx, dot_S10000x128_S128x128_S10000x128_1_0_0_1_n_n]; rfl
  rw [l2, r2, shapeCast_1ab_ab_apply]

/-- A column's sum over the rows, read at `j`. -/
private theorem colSum_apply (x : FVec Ideal S10000x128 .f32) (j : Fin 128) :
    RefTerm.colSum (F := Ideal) x (ix1 j) = ∑ r : Fin 10000, x (ix2 r j) := by
  unfold RefTerm.colSum
  rw [hostReduceAdd_apply,
    Ideal.hostReduceAdd_single reducesTo_S10000x128_S128_d0 (by decide : S10000x128.Reduces [0] S128)]
  have hz : RefTerm.zero (F := Ideal) (Shape.Idx.first h_S_) = 0 := Ideal.ofBits_zero_f32
  rw [hz, zero_add]
  refine Finset.sum_congr rfl fun r _ => ?_
  refine congrArg x ?_
  funext ax; apply Fin.ext
  match ax with
  | ⟨0, _⟩ => rfl
  | ⟨1, _⟩ => rfl

/-- The row count read at the scalar index is the literal `10000.0`. -/
private theorem rows_apply : RefTerm.rows (F := Ideal) ix0 = Cert.Spec.nLit := rfl

/-- A column's mean, read at `j`: the specification's mean of that column. -/
private theorem mean_apply (x : FVec Ideal S10000x128 .f32) (j : Fin 128) :
    RefTerm.mean (F := Ideal) x (ix1 j) = Cert.Spec.mu fun r => x (ix2 r j) := by
  unfold RefTerm.mean Cert.Spec.mu
  rw [hostDivf_apply, colSum_apply, broadcastInDim_scalar_apply, rows_apply]

/-- A vector of 128 copied down the rows reads, at `(r, j)`, the vector at `j`. -/
private theorem down_apply (v : FVec Ideal S128 .f32) (r : Fin 10000) (j : Fin 128) :
    RefTerm.down (F := Ideal) v (ix2 r j) = v (ix1 j) := by
  unfold RefTerm.down
  refine (broadcastInDim_apply _ _ _ (ix2 r j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-- The deviations the variance squares, read at `(r, j)`: the entry less the column's mean. -/
private theorem centred_apply (x : FVec Ideal S10000x128 .f32) (r : Fin 10000) (j : Fin 128) :
    RefTerm.centred (F := Ideal) x (ix2 r j) = x (ix2 r j) - Cert.Spec.mu fun r => x (ix2 r j) := by
  unfold RefTerm.centred Cert.Spec.mu
  rw [subf_apply]
  refine congrArg (x (ix2 r j) - ·) ?_
  refine (broadcastInDim_apply _ _ _ (ix2 r j) (ix2 (0 : Fin 1) j) fun a => ?_).trans ?_
  · match a with
    | ⟨0, _⟩ => rfl
    | ⟨1, _⟩ => rfl
  rw [hostDivf_apply, broadcastInDim_scalar_apply, rows_apply]
  refine congrArg (Ideal.div · Cert.Spec.nLit) ?_
  refine (broadcastInDim_apply _ _ _ (ix2 (0 : Fin 1) j) (ix1 j) fun a => ?_).trans (colSum_apply x j)
  match a with
  | ⟨0, _⟩ => rfl

/-- The variance's divisor: the row count less the real `0` the zero word converts to. -/
private theorem count_apply : RefTerm.count (F := Ideal) ix0 = Cert.Spec.nLit := by
  unfold RefTerm.count
  rw [subf_apply, rows_apply, sitofp_apply, constantI_apply]
  show Cert.Spec.nLit - (((0#32 : BitVec 32).toInt : ℝ) : EReal) = Cert.Spec.nLit
  rw [show ((0#32 : BitVec 32).toInt : ℝ) = 0 by simp, EReal.coe_zero, sub_zero]

/-- A column's variance, read at `j`: the guard holds (the divisor is positive), so it is the specification's
    variance of that column. -/
private theorem variance_apply (x : FVec Ideal S10000x128 .f32) (j : Fin 128) :
    RefTerm.variance (F := Ideal) x (ix1 j) = Cert.Spec.var fun r => x (ix2 r j) := by
  unfold RefTerm.variance Cert.Spec.var
  rw [select_apply, broadcastInDim_scalar_apply, cmpf_apply, count_apply]
  have hz : RefTerm.zero (F := Ideal) ix0 = 0 := Ideal.ofBits_zero_f32
  rw [hz, Ideal.cmpf_def]
  have hc : Ideal.cmp .ogt Cert.Spec.nLit 0 = 1#1 := by
    show BitVec.ofBool (decide ((0 : EReal) < Cert.Spec.nLit)) = 1#1
    rw [decide_eq_true Cert.Spec.nLit_pos]; rfl
  rw [hc, select_one, hostDivf_apply, colSum_apply, broadcastInDim_scalar_apply, count_apply]
  refine congrArg (Ideal.div · Cert.Spec.nLit) (Finset.sum_congr rfl fun r _ => ?_)
  rw [mulf_apply, centred_apply]

/-- The host's square root at an index is the ideal instance's square root of the element. -/
private theorem hostSqrt_apply {s : Shape} {φ : FTy} (v : FVec Ideal s φ) (i : s.Idx) :
    Host.sqrt v i = Ideal.sqrt (v i) := rfl

/-- The activation read at `(r, j)`: the specification's quotient-form activation of column `j` at row `r`. -/
private theorem act_apply (x : FVec Ideal S10000x128 .f32) (g b : FVec Ideal S128 .f32) (r : Fin 10000) (j : Fin 128) :
    RefTerm.act (F := Ideal) x g b (ix2 r j)
      = Cert.Spec.actDiv (fun r => x (ix2 r j)) (g (ix1 j)) (b (ix1 j)) r := by
  unfold RefTerm.act Cert.Spec.actDiv
  rw [maximumf_apply, addf_apply, mulf_apply, hostDivf_apply, subf_apply, down_apply, down_apply, down_apply,
    down_apply, mean_apply, broadcastInDim_scalar_apply, hostSqrt_apply, addf_apply, variance_apply,
    broadcastInDim_scalar_apply]
  rfl

/-- The reference's term is the specification's layer with the quotient-form activation. -/
theorem term_eq (H : FVec Ideal S1x10000x128 .f32) (A : FVec Ideal S10000x10000 .f32) (W : FVec Ideal S128x128 .f32)
    (g b : FVec Ideal S128 .f32) :
    RefTerm.term (F := Ideal) H A W g b = Cert.Spec.layer Cert.Spec.actDiv H A W g b := by
  funext x
  obtain ⟨a, i, j, rfl⟩ : ∃ (a : Fin 1) (i : Fin 10000) (j : Fin 128), x = ix3 a i j := ⟨x 0, x 1, x 2, eq_ix3 x⟩
  unfold RefTerm.term Cert.Spec.layer
  -- the outer unit-axis shuffle: entry (a, i, j) is the product's entry (i, j)
  refine (transpose_apply _ _ _ (ix3 a i j) (ix3 i a j) fun c => ?_).trans ?_
  · match c with
    | ⟨0, _⟩ => rfl
    | ⟨1, _⟩ => rfl
    | ⟨2, _⟩ => rfl
  refine (shapeCast_apply _ _ (ix3 i a j) (ix2 i j) ?_).trans ?_
  · have ha : a.val = 0 := by omega
    rw [Shape.rowMajor_val_three, Shape.rowMajor_val_two]
    show i.val * 128 + j.val = (i.val * 1 + a.val) * 128 + j.val
    rw [ha, Nat.mul_one, Nat.add_zero]
  -- the aggregation: the sum over the 10000 rows
  show FloatOps.dotGeneral _ none _ A _ (ix2 i j) = _
  rw [Ideal.dotGeneral_apply,
    ← Equiv.sum_comp (contrEquiv1 dot_S10000x10000_S10000x128_S10000x128_1_0_0_1_n_n 10000 rfl rfl).symm]
  refine Finset.sum_congr rfl fun k _ => ?_
  have c2 := contrEquiv1_symm_val dot_S10000x10000_S10000x128_S10000x128_1_0_0_1_n_n 10000 rfl rfl k
  have l2 : dot_S10000x10000_S10000x128_S10000x128_1_0_0_1_n_n.lhsIdx (ix2 i j)
      ((contrEquiv1 dot_S10000x10000_S10000x128_S10000x128_1_0_0_1_n_n 10000 rfl rfl).symm k) = ix2 i k := by
    funext ax; apply Fin.ext
    match ax with
    | ⟨0, _⟩ => simp [DotDims.lhsIdx, dot_S10000x10000_S10000x128_S10000x128_1_0_0_1_n_n]; rfl
    | ⟨1, _⟩ => simp [DotDims.lhsIdx, dot_S10000x10000_S10000x128_S10000x128_1_0_0_1_n_n]; exact c2
  have r2 : dot_S10000x10000_S10000x128_S10000x128_1_0_0_1_n_n.rhsIdx (ix2 i j)
      ((contrEquiv1 dot_S10000x10000_S10000x128_S10000x128_1_0_0_1_n_n 10000 rfl rfl).symm k) = ix2 k j := by
    funext ax; apply Fin.ext
    match ax with
    | ⟨0, _⟩ => simp [DotDims.rhsIdx, dot_S10000x10000_S10000x128_S10000x128_1_0_0_1_n_n]; exact c2
    | ⟨1, _⟩ => simp [DotDims.rhsIdx, dot_S10000x10000_S10000x128_S10000x128_1_0_0_1_n_n]; rfl
  rw [l2, r2]
  refine congrArg (A (ix2 i k) * ·) ?_
  -- the inner unit-axis shuffle: entry (k, j) is the activation's entry (k, j)
  refine (shapeCast_apply _ _ (ix2 k j) (ix3 k (0 : Fin 1) j) ?_).trans ?_
  · rw [Shape.rowMajor_val_three, Shape.rowMajor_val_two]
    show (k.val * 1 + 0) * 128 + j.val = k.val * 128 + j.val
    rw [Nat.mul_one, Nat.add_zero]
  refine (transpose_apply _ _ _ (ix3 k (0 : Fin 1) j) (ix3 (0 : Fin 1) k j) fun c => ?_).trans ?_
  · match c with
    | ⟨0, _⟩ => rfl
    | ⟨1, _⟩ => rfl
    | ⟨2, _⟩ => rfl
  rw [shapeCast_ab_1ab_apply, act_apply]
  have hcol : (fun r => RefTerm.pre (F := Ideal) H W (ix2 r j)) = Cert.Spec.ht H W j := funext fun r => pre_apply H W r j
  rw [hcol]

end Cert.ReferenceIdeal.RefRead

end
-- ==== Proof.lean ====
/-
  A graph-convolution layer, fused into one kernel, against its plain reference.

  Both programs take node features `H` (a unit batch of 10000 × 128), a dense adjacency matrix `A` (10000 × 10000),
  weights `W` (128 × 128) and a scale `γ` and shift `β` (128 each). Both form `H · W`, normalise each of its 128
  columns by the column's own mean and biased variance over the 10000 rows, scale, shift and clip at zero, and
  multiply the result by `A`.

  The kernel walks `A` in 25 row blocks of 400. At the first block it computes the normalised features once, into
  a scratch buffer that it keeps for the remaining 24 blocks; at every block it multiplies the adjacency rows by that
  scratch. So the call's result, row block by row block, is `A` times the scratch, and the scratch is the same
  array at every block (Proof/KerValue.lean, over the generated frame run).

  Read over the extended reals the two programs differ in one place only: the kernel multiplies the centred value by
  the reciprocal square root of `variance + ε`, the reference divides it by the square root. These agree whenever
  `variance + ε` is positive, and it always is — a mean of squares is never negative, at the infinities either, and
  `ε` is a positive real (Proof/Spec.lean). The equivalence therefore holds for all inputs; the precondition is not
  used. Narrowing to bf16 before the second product is the identity on the extended reals, and a product into a zero
  accumulator is the plain sum of products on both sides.

  The reference's own run (its three outlined functions unfolded into one straight line) is Proof/RefRun.lean; its
  result read at an index is Proof/RefRead.lean. The kernel is its own idealization: nothing was rewritten, so
  `preserves` has nothing to state.
-/
import proofs.«174554_g26774826123627_cont_sun_c4_362_7_alg».proof.Defs
import proofs.«174554_g26774826123627_cont_sun_c4_362_7_alg».proof.Proof.Gen.Kernel
import proofs.«174554_g26774826123627_cont_sun_c4_362_7_alg».proof.Proof.Gen.Kernel.Frame
import proofs.«174554_g26774826123627_cont_sun_c4_362_7_alg».proof.Proof.Gen.KernelIdeal
import proofs.«174554_g26774826123627_cont_sun_c4_362_7_alg».proof.Proof.Gen.KernelIdeal.Frame
import proofs.«174554_g26774826123627_cont_sun_c4_362_7_alg».proof.Proof.Gen.ReferenceIdeal
import proofs.«174554_g26774826123627_cont_sun_c4_362_7_alg».proof.Proof.Gen.Pre_finite_inputs
import proofs.«174554_g26774826123627_cont_sun_c4_362_7_alg».proof.Proof.Spec
import proofs.«174554_g26774826123627_cont_sun_c4_362_7_alg».proof.Proof.KerValue
import proofs.«174554_g26774826123627_cont_sun_c4_362_7_alg».proof.Proof.RefRun
import proofs.«174554_g26774826123627_cont_sun_c4_362_7_alg».proof.Proof.RefRead
import Idealize.ShloMosaic.Adequacy
import Idealize.ShloMosaic.Init

noncomputable section

namespace Cert.Proof

open Idealize.ShloMosaic Idealize.SL.Sem

/-- The kernel as printed runs and leaves its arguments alone: the generated frame. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- Over the extended reals the kernel's result is the layer with the reciprocal-square-root activation and the
    reference's the layer with the quotient activation, of arguments that agree: one array. -/
theorem algebraic : Cert.algebraic_KernelIdeal_ReferenceIdeal := by
  intro m ρ m' ρ' _ hagree
  refine ⟨fun c => Cert.Spec.layer Cert.Spec.actMul (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRead.term_eq, (hagree c).1, (hagree c).2.1, (hagree c).2.2.1, (hagree c).2.2.2.1, (hagree c).2.2.2.2]
  exact (Cert.Spec.layer_actMul_eq_actDiv _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
